-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S100000 : Shape := ⟨1, ![100000]⟩
abbrev S128 : Shape := ⟨1, ![128]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1000000 32) (main_arg2 : IVec S1000000 32) (main_arg3 : IVec S100000 32) (main_arg4 : IVec S128 32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_v13 main_v16
-- ==== Kernel.lean ====
abbrev S100000x64 : Shape := ⟨2, ![100000, 64]⟩
abbrev S1000000 : Shape := ⟨1, ![1000000]⟩
abbrev S100000 : Shape := ⟨1, ![100000]⟩
abbrev S128 : Shape := ⟨1, ![128]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S5000x64 : Shape := ⟨2, ![5000, 64]⟩

abbrev nBuf : Space → Nat
  | .hbm => 48
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S100000, .i32⟩
  | .hbm, ⟨4, _⟩ => ⟨S128, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S100000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S100000x64, .f32⟩
  | .hbm, ⟨45, _⟩ => ⟨S1x64, .f32⟩
  | .hbm, ⟨46, _⟩ => ⟨S1x64, .f32⟩
  | .hbm, ⟨47, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S100000 : Shape := ⟨1, ![100000]⟩
abbrev S128 : Shape := ⟨1, ![128]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S100000, .i32⟩
  | .hbm, ⟨4, _⟩ => ⟨S128, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S100000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The function both programs compute, stated once over literal shapes and importing no program.

  A dense layer followed by relu sends a row `x` of 64 entries to the row whose entry `k` is
  `max (Σ_l x l · w(l, k) + b k) 0` on the extended reals. The result array applies two such layers to every row of a
  [100000, 64] array: entry `(r, j)` depends on row `r` of the input alone, through the 64 entries of the hidden row.
  The relu's zero is kept as the value of the zero word; the same word stands on both sides and is never evaluated.
-/
import Idealize.ShloMosaic.PureOps.Ideal
import Idealize.ShloMosaic.Lib.ValueIdx

noncomputable section

namespace Cert.Mlp

open Idealize.ShloMosaic Idealize.ShloMosaic.ValueIdx

/-- What a relu compares against: the extended real the zero word denotes. -/
abbrev zero32 : EReal := Ideal.ofBits .f32 0x00000000#32

/-- One entry of a dense layer followed by relu: `row l` is the input row at the contracted coordinate `l`, `w` the
    64 × 64 weights, `b k` the bias of output coordinate `k`. -/
def unit (row : Fin 64 → EReal) (w : FVec Ideal ⟨2, ![64, 64]⟩ .f32) (b : Fin 64 → EReal) (k : Fin 64) : EReal :=
  max (∑ l : Fin 64, row l * w (ix2 l k) + b k) zero32

/-- Two layers: the hidden row is the first layer's 64 entries, and the output entry `j` is the second layer's over it. -/
def two (row : Fin 64 → EReal) (wh : FVec Ideal ⟨2, ![64, 64]⟩ .f32) (bh : Fin 64 → EReal)
    (wo : FVec Ideal ⟨2, ![64, 64]⟩ .f32) (bo : Fin 64 → EReal) (j : Fin 64) : EReal :=
  unit (fun k => unit row wh bh k) wo bo j

/-- The whole result: entry `(r, j)` is the two layers applied to row `r` of `xa`, read at `j`. -/
def result (xa : FVec Ideal ⟨2, ![100000, 64]⟩ .f32) (wh : FVec Ideal ⟨2, ![64, 64]⟩ .f32) (bh : FVec Ideal ⟨1, ![64]⟩ .f32)
    (wo : FVec Ideal ⟨2, ![64, 64]⟩ .f32) (bo : FVec Ideal ⟨1, ![64]⟩ .f32) : FVec Ideal ⟨2, ![100000, 64]⟩ .f32 :=
  fun i => two (fun l => xa (ix2 (⟨(i 0).val, (i 0).isLt⟩ : Fin 100000) l)) wh (fun k => bh (ix1 k)) wo (fun k => bo (ix1 k))
    (⟨(i 1).val, (i 1).isLt⟩ : Fin 64)

/-- The result at an index given by its two coordinates. -/
theorem result_ix2 (xa : FVec Ideal ⟨2, ![100000, 64]⟩ .f32) (wh : FVec Ideal ⟨2, ![64, 64]⟩ .f32) (bh : FVec Ideal ⟨1, ![64]⟩ .f32)
    (wo : FVec Ideal ⟨2, ![64, 64]⟩ .f32) (bo : FVec Ideal ⟨1, ![64]⟩ .f32) (r : Fin 100000) (j : Fin 64) :
    result xa wh bh wo bo (ix2 r j) = two (fun l => xa (ix2 r l)) wh (fun k => bh (ix1 k)) wo (fun k => bo (ix1 k)) j := rfl

end Cert.Mlp

end
-- ==== Proof.BlockValue.lean ====
/-
  The kernel body's one store, read at an entry. Per block of 5000 rows the body loads the block `x`, the two weight
  matrices and the two bias rows, and stores `relu (relu (x · W₁ + b₁) · W₂ + b₂)`, each product taken by the matrix unit
  into a zero accumulator over operands narrowed to bf16. On the extended reals the narrowing is the identity and the
  product into zero is the plain sum over the contracted coordinate, so entry `(p, q)` of the stored block is the two
  layers of Layer.lean applied to row `p` of the loaded block.
-/
import proofs.«128355_j73512660239033_1_alg».proof.Proof.Gen.KernelIdeal.Skeleton
import proofs.«128355_j73512660239033_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The product's operand indices: a [5000, 64] × [64, 64] contraction of axis 1 with axis 0 -/

/-- The left operand's row is the result's row; -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the contracted coordinate. -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contracted coordinate; -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- its column the result's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product into a zero accumulator, at `(p, k)`: the sum over the 64 contracted coordinates of
    the left row's entries times the right column's. -/
theorem matmul_at (y : FVec Ideal S5000x64 .bf16) (w : FVec Ideal S64x64 .bf16) (p : Fin 5000) (k : Fin 64) :
    matmul dot_S5000x64_S64x64_S5000x64_1_0_0_1_n_n none y w (constant S5000x64 .f32 0x00000000#32) (ix2 p k)
      = ∑ l : Fin 64, y (ix2 p l) * w (ix2 l k) := by
  refine (Ideal.matmul_constant_zero_apply dot_S5000x64_S64x64_S5000x64_1_0_0_1_n_n none y w (ix2 p k)).trans ?_
  rw [← Equiv.sum_comp (contrEquiv1 dot_S5000x64_S64x64_S5000x64_1_0_0_1_n_n 64 rfl rfl).symm]
  refine Finset.sum_congr rfl fun l _ => ?_
  have hl := contrEquiv1_symm_val dot_S5000x64_S64x64_S5000x64_1_0_0_1_n_n 64 rfl rfl l
  have el : dot_S5000x64_S64x64_S5000x64_1_0_0_1_n_n.lhsIdx (ix2 p k) ((contrEquiv1 dot_S5000x64_S64x64_S5000x64_1_0_0_1_n_n 64 rfl rfl).symm l) = ix2 p l := funext fun a => Fin.ext (by
    match a with
    | ⟨0, _⟩ => exact lhs_row _ _
    | ⟨1, _⟩ => exact (lhs_col _ _).trans hl)
  have er : dot_S5000x64_S64x64_S5000x64_1_0_0_1_n_n.rhsIdx (ix2 p k) ((contrEquiv1 dot_S5000x64_S64x64_S5000x64_1_0_0_1_n_n 64 rfl rfl).symm l) = ix2 l k := funext fun a => Fin.ext (by
    match a with
    | ⟨0, _⟩ => exact (rhs_row _ _).trans hl
    | ⟨1, _⟩ => exact rhs_col _ _)
  rw [el, er]

/-! ## One layer, then the store's whole value -/

/-- One layer of the body at `(p, k)`: the product of `y` with the narrowed weights, plus the bias row broadcast over the
    5000 rows, against the splat zero — `Mlp.unit` of row `p` of `y`. -/
theorem layer_at (y : FVec Ideal S5000x64 .bf16) (w : Vec Ideal S64x64 .f32) (b : Vec Ideal S1x64 .f32) (p : Fin 5000) (k : Fin 64) :
    maximumf (addf (matmul dot_S5000x64_S64x64_S5000x64_1_0_0_1_n_n none y (truncf .bf16 w bitsLt_bf16_f32) (constant S5000x64 .f32 0x00000000#32))
        (broadcastTo S5000x64 (shapeCast S1x64 b shapeCasts_S1x64_S1x64) broadcasts_S1x64_S5000x64))
      (broadcast S5000x64 (Scalar.ofBits .f32 0x00000000#32)) (ix2 p k)
    = Cert.Mlp.unit (fun l => y (ix2 p l)) w (fun k => b (ix2 (0 : Fin 1) k)) k := by
  refine (maximumf_apply _ _ _).trans ?_
  refine congrArg₂ max ((addf_apply _ _ _).trans (congrArg₂ (· + ·) ?_ ?_)) rfl
  · exact matmul_at y (truncf .bf16 w bitsLt_bf16_f32) p k
  · exact (broadcastTo_1b_ab_apply _ broadcasts_S1x64_S5000x64 p k).trans (congrFun (shapeCast_self b shapeCasts_S1x64_S1x64) _)

/-- THE STORED BLOCK AT AN ENTRY: the two layers of row `p` of the loaded block, read at `q`. -/
theorem pay_at (x0 : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k0_pay1 x0 w1 b1 w2 b2 (ix2 p q)
      = Cert.Mlp.two (fun l => x0 (ix2 p l)) w1 (fun k => b1 (ix2 (0 : Fin 1) k)) w2 (fun k => b2 (ix2 (0 : Fin 1) k)) q := by
  unfold k0_pay1 Cert.Mlp.two
  refine (layer_at _ w2 b2 p q).trans ?_
  refine congrArg (fun row => Cert.Mlp.unit row w2 (fun k => b2 (ix2 (0 : Fin 1) k)) q) (funext fun k => ?_)
  exact (layer_at _ w1 b1 p k).trans
    (congrArg (fun row => Cert.Mlp.unit row w1 (fun k => b1 (ix2 (0 : Fin 1) k)) k)
      (funext fun l => congrFun (shapeCast_self x0 shapeCasts_S5000x64_S5000x64) (ix2 p l)))

/-- A STORED BLOCK'S ENTRY IS THE RESULT ARRAY'S ENTRY when the loaded block's row `p` is row `r` of the array, the loaded
    weights are the weight arrays entry by entry, and each loaded bias row holds the bias vector. -/
theorem pay_eq_result (xa : FVec Ideal S100000x64 .f32) (wh wo : FVec Ideal S64x64 .f32) (bh bo : FVec Ideal S64 .f32)
    (x0 : Vec Ideal S5000x64 .f32) (w1 w2 : Vec Ideal S64x64 .f32) (b1 b2 : Vec Ideal S1x64 .f32)
    (p : Fin 5000) (q : Fin 64) (r : Fin 100000)
    (hrow : ∀ l : Fin 64, x0 (ix2 p l) = xa (ix2 r l))
    (hw1 : ∀ l k : Fin 64, w1 (ix2 l k) = wh (ix2 l k)) (hw2 : ∀ l k : Fin 64, w2 (ix2 l k) = wo (ix2 l k))
    (hb1 : ∀ k : Fin 64, b1 (ix2 (0 : Fin 1) k) = bh (ix1 k)) (hb2 : ∀ k : Fin 64, b2 (ix2 (0 : Fin 1) k) = bo (ix1 k)) :
    k0_pay1 x0 w1 b1 w2 b2 (ix2 p q) = Cert.Mlp.result xa wh bh wo bo (ix2 r q) := by
  rw [pay_at, Cert.Mlp.result_ix2]
  unfold Cert.Mlp.two Cert.Mlp.unit
  simp only [hrow, hw1, hw2, hb1, hb2]

end Cert.KernelIdeal.Block

end
-- ==== Proof.KernelArray.lean ====
/-
  From the blocks to the whole array, on the kernel's side. The region's 20 grid points each fetch 5000 consecutive
  rows of the aggregated input, the two weight matrices whole and the two bias rows, and write back 5000 rows of the
  result; point `t` handles rows `5000 t … 5000 t + 4999`, so the blocks tile the [100000, 64] result and row `r` is
  written by point `r / 5000`. Each written block is the corresponding block of ONE whole-array function, `Mlp.result`
  of the arrays as the region finds them; hence the result array ends holding that function.

  Three of the region's input arrays are written by the host operations before it: the aggregated input (the two
  scatter-adds of gathered rows, with negative indices wrapped by the array's extent) and the two biases reshaped from
  [64] to [1, 64]. The aggregated input is kept whole as `xagg`: the reference computes the same term.
-/
import proofs.«128355_j73512660239033_1_alg».proof.Proof.Gen.KernelIdeal.Value
import proofs.«128355_j73512660239033_1_alg».proof.Proof.BlockValue
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the host operations write before the region -/

/-- An index vector with its negative entries wrapped by the extent 100000, as a column. -/
def wrap (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- The aggregated input: to `x0`, the rows gathered at `x2` added at `x1`, then the rows of `x0` gathered at `x1`
    added at `x2`. -/
def xagg (x0 : FVec Ideal S100000x64 .f32) (x1 x2 : IVec S1000000 32) : FVec Ideal S100000x64 .f32 :=
  Host.scatterAdd scatter_S100000x64_S1000000x1_S1000000x64_1_0_0_1
    (Host.scatterAdd scatter_S100000x64_S1000000x1_S1000000x64_1_0_0_1 x0 (wrap x1)
      (Host.gather gather_S100000x64_S1000000x1_S1000000x64_1_0_n_n_0_1_164 x0 (wrap x2)))
    (wrap x2)
    (Host.gather gather_S100000x64_S1000000x1_S1000000x64_1_0_n_n_0_1_164 x0 (wrap x1))

/-- The region finds the aggregated input in window 0's array. -/
theorem V_xagg (c : Dev nD) :
    (V m c main_v27 : S100000x64.Idx → EReal) = xagg (m ((c : Thread nD τ).loc main_arg0)) (m ((c : Thread nD τ).loc main_arg1)) (m ((c : Thread nD τ).loc main_arg2)) := by
  dsimp only [Gen.V, Gen.hostOps0]
  after_results_simp
  rfl

/-- Window 2's array is the first bias as one row; -/
theorem V_bias_h (c : Dev nD) :
    (V m c main_v28 : S1x64.Idx → EReal) = shapeCast S1x64 (m ((c : Thread nD τ).loc main_arg6)) shapeCasts_S64_S1x64 := by
  dsimp only [Gen.V, Gen.hostOps0]
  after_results
  rfl

/-- window 4's the second. -/
theorem V_bias_o (c : Dev nD) :
    (V m c main_v29 : S1x64.Idx → EReal) = shapeCast S1x64 (m ((c : Thread nD τ).loc main_arg8)) shapeCasts_S64_S1x64 := by
  dsimp only [Gen.V, Gen.hostOps0]
  after_results
  rfl

/-! ## What each point writes back -/

theorem hz : (![0, 0] : Fin 2 → Nat) = fun _ => 0 := funext fun a => by fin_cases a <;> rfl

/-- The printed index maps over the 20 points: the input rows and the result rows move with the point, everything
    else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The function the result array ends holding, over the arrays as the region finds them. -/
def target (c : Dev nD) : S100000x64.Idx → EReal :=
  Cert.Mlp.result (V m c main_v27) (V m c main_arg5) (m ((c : Thread nD τ).loc main_arg6)) (V m c main_arg7) (m ((c : Thread nD τ).loc main_arg8))

/-- WHAT POINT `t` WRITES BACK is block `t` of `target`. -/
theorem flushed_eq (c : Dev nD) (t : Fin cfg0.N) :
    (dats m 0 c).flushed 5 t = ((cfg0.win 5).blk t).view.read (Elt Ideal) (target m c) := by
  rw [Cert.KernelIdeal.Value.flushed5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts t
  have ht : t.val < 20 := lt_of_lt_of_eq t.isLt N_0
  funext y
  obtain ⟨p, q, rfl⟩ : ∃ (p : Fin 5000) (q : Fin 64), y = ix2 p q := ⟨y 0, y 1, eq_ix2 y⟩
  have hp : p.val < 5000 := p.isLt
  have hemb : ((cfg0.win 5).blk t).view.emb (ix2 p q) = ix2 (⟨t.val * 5000 + p.val, by omega⟩ : Fin 100000) q :=
    funext fun a => Fin.ext (by
      match a with
      | ⟨0, _⟩ => show win0_5.index t (0 : Fin 2) * 5000 + 1 * p.val = t.val * 5000 + p.val; omega
      | ⟨1, _⟩ => show win0_5.index t (1 : Fin 2) * 64 + 1 * q.val = q.val; omega)
  show k0_pay1 (iblk m c 0 t) (iblk m c 1 t) (iblk m c 2 t) (iblk m c 3 t) (iblk m c 4 t) (ix2 p q)
    = target m c (((cfg0.win 5).blk t).view.emb (ix2 p q))
  rw [hemb]
  unfold target
  refine Cert.KernelIdeal.Block.pay_eq_result (V m c main_v27) (V m c main_arg5) (V m c main_arg7) (m ((c : Thread nD τ).loc main_arg6)) (m ((c : Thread nD τ).loc main_arg8))
    (iblk m c 0 t) (iblk m c 1 t) (iblk m c 3 t) (iblk m c 2 t) (iblk m c 4 t) p q _ ?_ ?_ ?_ ?_ ?_
  · intro l
    show V m c main_v27 (((cfg0.win 0).blk t).view.emb (ix2 p l)) = _
    refine congrArg (V m c main_v27) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * l.val = l.val; omega
  · intro l k
    show V m c main_arg5 (((cfg0.win 1).blk t).view.emb (ix2 l k)) = _
    refine congrArg (V m c main_arg5) (funext fun a => Fin.ext ?_)
    match a with
    | ⟨0, _⟩ => show win0_1.index t (0 : Fin 2) * 64 + 1 * l.val = l.val; omega
    | ⟨1, _⟩ => show win0_1.index t (1 : Fin 2) * 64 + 1 * k.val = k.val; omega
  · intro l k
    show V m c main_arg7 (((cfg0.win 3).blk t).view.emb (ix2 l k)) = _
    refine congrArg (V m c main_arg7) (funext fun a => Fin.ext ?_)
    match a with
    | ⟨0, _⟩ => show win0_3.index t (0 : Fin 2) * 64 + 1 * l.val = l.val; omega
    | ⟨1, _⟩ => show win0_3.index t (1 : Fin 2) * 64 + 1 * k.val = k.val; omega
  · intro k
    show V m c main_v28 (((cfg0.win 2).blk t).view.emb (ix2 (0 : Fin 1) k)) = _
    have he : ((cfg0.win 2).blk t).view.emb (ix2 (0 : Fin 1) k) = ix2 (0 : Fin 1) k := funext fun a => Fin.ext (by
      match a with
      | ⟨0, _⟩ => show win0_2.index t (0 : Fin 2) * 1 + 1 * 0 = 0; omega
      | ⟨1, _⟩ => show win0_2.index t (1 : Fin 2) * 64 + 1 * k.val = k.val; omega)
    rw [he, V_bias_h]
    exact shapeCast_a_1a_apply _ shapeCasts_S64_S1x64 (0 : Fin 1) k
  · intro k
    show V m c main_v29 (((cfg0.win 4).blk t).view.emb (ix2 (0 : Fin 1) k)) = _
    have he : ((cfg0.win 4).blk t).view.emb (ix2 (0 : Fin 1) k) = ix2 (0 : Fin 1) k := funext fun a => Fin.ext (by
      match a with
      | ⟨0, _⟩ => show win0_4.index t (0 : Fin 2) * 1 + 1 * 0 = 0; omega
      | ⟨1, _⟩ => show win0_4.index t (1 : Fin 2) * 64 + 1 * k.val = k.val; omega)
    rw [he, V_bias_o]
    exact shapeCast_a_1a_apply _ shapeCasts_S64_S1x64 (0 : Fin 1) k

/-! ## The blocks tile the array -/

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v30).slice (win0_5.rect t)).set ↔ _
  rw [View.set_slice_whole, Rect.mem_set_unit]
  exact Iff.rfl

/-- Row `r` lies in the block of point `r / 5000`, which writes back. -/
theorem cover (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have ht : (i 0).val / 5000 < cfg0.N := lt_of_lt_of_eq (by omega : (i 0).val / 5000 < 20) N_0.symm
  refine ⟨⟨(i 0).val / 5000, ht⟩, flush0_5 _, ?_⟩
  obtain ⟨e00, e01, e10, e11, e20, e21, e30, e31, e40, e41, e50, e51⟩ := idx_facts ⟨(i 0).val / 5000, ht⟩
  have e50' : win0_5.index ⟨(i 0).val / 5000, ht⟩ (0 : Fin 2) = (i 0).val / 5000 := e50
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    omega

/-- THE RESULT ARRAY after the run. -/
theorem final (c : Dev nD) : (dats m 0 c).arrAt 5 cfg0.N = target m c :=
  (dats m 0 c).arrAt_eq_of_cover 5 (target m c) (fun t _ => flushed_eq m c t) cover

/-- The same over the launch contents of the arguments. -/
theorem target_eq (c : Dev nD) :
    target m c = Cert.Mlp.result (xagg (m ((c : Thread nD τ).loc main_arg0)) (m ((c : Thread nD τ).loc main_arg1)) (m ((c : Thread nD τ).loc main_arg2)))
      (m ((c : Thread nD τ).loc main_arg5)) (m ((c : Thread nD τ).loc main_arg6)) (m ((c : Thread nD τ).loc main_arg7)) (m ((c : Thread nD τ).loc main_arg8)) := by
  unfold target
  rw [V_xagg, V_main_arg5, V_main_arg7]

/-! ## The run, read -/

/-- Every weakly fair execution ends with the result array at `Mlp.result` of the aggregated input, the weights and
    the biases as launched, and the arguments unchanged. -/
theorem run : θ_run defs (onTc (τ := τ) (main (F := Ideal))) ⟨m, fun _ => 0, ρ⟩ fun r => ∀ c : Dev nD,
      r.2.mem ((c : Thread nD τ).loc main_v30) = Cert.Mlp.result (xagg (m ((c : Thread nD τ).loc main_arg0)) (m ((c : Thread nD τ).loc main_arg1)) (m ((c : Thread nD τ).loc main_arg2)))
        (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (target_eq m c)), (h c).2⟩)
    (Cert.KernelIdeal.Value.run_blocks m ρ)

end Cert.KernelIdeal.Array

end
-- ==== Proof.RefArray.lean ====
/-
  The reference's result, read at an entry. After the two scatter-adds (kept whole here as the array `val_main_v27`: the
  same term stands on the kernel's side) the reference takes `relu (X_agg · W₁ + b₁)` and then `relu (· W₂ + b₂)` over the
  whole [100000, 64] array, each product a contraction over 64 coordinates and each bias a row broadcast over all rows.
  Entry `(r, k)` of the hidden array is one layer of Layer.lean over row `r` of `X_agg`, and entry `(r, j)` of the result
  one layer over row `r` of the hidden array: the result is `Mlp.result` of `X_agg`.
-/
import proofs.«128355_j73512660239033_1_alg».proof.Proof.Gen.ReferenceIdeal.Read
import proofs.«128355_j73512660239033_1_alg».proof.Proof.Layer

noncomputable section

namespace Cert.ReferenceIdeal.RefArray

open Cert.ReferenceIdeal Cert.ReferenceIdeal.Read Idealize.ShloMosaic Idealize.ShloMosaic.ValueIdx

/-- The hidden array at `(r, k)`: one layer over row `r` of the aggregated input. -/
theorem hidden_at (x0 : (⟨S100000x64, .f32⟩ : BufTy).Contents (Elt Ideal)) (x1 x2 : (⟨S1000000, .i32⟩ : BufTy).Contents (Elt Ideal)) (x5 : (⟨S64x64, .f32⟩ : BufTy).Contents (Elt Ideal)) (x6 : (⟨S64, .f32⟩ : BufTy).Contents (Elt Ideal)) (r : Fin 100000) (k : Fin 64) :
    val_main_v32 (F := Ideal) x0 x1 x2 x5 x6 (ix2 r k)
      = Cert.Mlp.unit (fun l => val_main_v27 (F := Ideal) x0 x1 x2 (ix2 r l)) x5 (fun k => x6 (ix1 k)) k := by
  have e1 : ∀ l : Fin 64, lidx_main_v28 (ix2 r k) l = ix2 r l := fun l => funext fun a => Fin.ext (by
    match a with | ⟨0, _⟩ => rfl | ⟨1, _⟩ => rfl)
  have e2 : ∀ l : Fin 64, ridx_main_v28 (ix2 r k) l = ix2 l k := fun l => funext fun a => Fin.ext (by
    match a with | ⟨0, _⟩ => rfl | ⟨1, _⟩ => rfl)
  have e3 : idx_main_v29 (idx_main_v30 (ix2 r k)) = ix1 k := funext fun a => Fin.ext (by
    match a with | ⟨0, _⟩ => rfl)
  rw [val_main_v32_apply, val_main_v31_apply, val_main_v28_apply, val_main_v30_apply, val_main_v29_apply,
    val_main_call0_v0_apply, val_main_call0_cst_apply]
  simp only [e1, e2, e3]
  rfl

/-- The result at `(r, j)`: one layer over row `r` of the hidden array. -/
theorem out_at (x0 : (⟨S100000x64, .f32⟩ : BufTy).Contents (Elt Ideal)) (x1 x2 : (⟨S1000000, .i32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 100000) (j : Fin 64) :
    val_main_v37 (F := Ideal) x0 x1 x2 x5 x6 x7 x8 (ix2 r j)
      = Cert.Mlp.unit (fun k => val_main_v32 (F := Ideal) x0 x1 x2 x5 x6 (ix2 r k)) x7 (fun k => x8 (ix1 k)) j := by
  have e1 : ∀ k : Fin 64, lidx_main_v33 (ix2 r j) k = ix2 r k := fun k => funext fun a => Fin.ext (by
    match a with | ⟨0, _⟩ => rfl | ⟨1, _⟩ => rfl)
  have e2 : ∀ k : Fin 64, ridx_main_v33 (ix2 r j) k = ix2 k j := fun k => funext fun a => Fin.ext (by
    match a with | ⟨0, _⟩ => rfl | ⟨1, _⟩ => rfl)
  have e3 : idx_main_v34 (idx_main_v35 (ix2 r j)) = ix1 j := funext fun a => Fin.ext (by
    match a with | ⟨0, _⟩ => rfl)
  rw [val_main_v37_apply, val_main_v36_apply, val_main_v33_apply, val_main_v35_apply, val_main_v34_apply,
    val_main_call1_v0_apply, val_main_call1_cst_apply]
  simp only [e1, e2, e3]
  rfl

/-- THE REFERENCE'S RESULT is `Mlp.result` of the aggregated input, the two weight matrices and the two biases. -/
theorem result_eq (x0 : (⟨S100000x64, .f32⟩ : BufTy).Contents (Elt Ideal)) (x1 x2 : (⟨S1000000, .i32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v37 (F := Ideal) x0 x1 x2 x5 x6 x7 x8
      = Cert.Mlp.result (val_main_v27 (F := Ideal) x0 x1 x2) x5 x6 x7 x8 := by
  funext i
  obtain ⟨r, j, rfl⟩ : ∃ (r : Fin 100000) (j : Fin 64), i = ix2 r j := ⟨i 0, i 1, eq_ix2 i⟩
  rw [Cert.Mlp.result_ix2, out_at]
  unfold Cert.Mlp.two
  exact congrArg (fun row => Cert.Mlp.unit row x7 (fun k => x8 (ix1 k)) j)
    (funext fun k => hidden_at x0 x1 x2 x5 x6 r k)

end Cert.ReferenceIdeal.RefArray

end
-- ==== Proof.lean ====
/-
  A graph layer: node features aggregated over an edge list, then a two-layer perceptron with relu after each layer.

  Both programs first form the aggregated features by the same host operations: negative edge endpoints are wrapped by
  the number of nodes, the rows at one endpoint are gathered and added at the other, and then the other way round. The
  kernel then runs the perceptron on the matrix unit, 5000 rows per grid point, with operands narrowed to bf16 and sums
  kept in f32; the reference runs it on the whole [100000, 64] array in f32. On the extended reals a change of format is
  the identity and a product into a zero accumulator is the plain sum over the 64 contracted coordinates, so both results
  are, entry by entry, `max (Σ_k max (Σ_l a(r,l) · W₁(l,k) + b₁ k) 0 · W₂(k,j) + b₂ j) 0` of the aggregated array `a`
  (Proof/Layer.lean). No law beyond the two sums being the same sum is used, so the inputs' finiteness is not needed.

  The kernel's side is Proof/BlockValue.lean (the stored block at an entry) and Proof/KernelArray.lean (the 20 blocks
  tile the result); the reference's side is Proof/RefArray.lean. Here: the two aggregated arrays are one term, and the
  five claims.
-/
import proofs.«128355_j73512660239033_1_alg».proof.Defs
import proofs.«128355_j73512660239033_1_alg».proof.Proof.Gen.Kernel
import proofs.«128355_j73512660239033_1_alg».proof.Proof.Gen.Kernel.Skeleton
import proofs.«128355_j73512660239033_1_alg».proof.Proof.Gen.Kernel.Launch
import proofs.«128355_j73512660239033_1_alg».proof.Proof.Gen.Kernel.Points
import proofs.«128355_j73512660239033_1_alg».proof.Proof.Gen.Kernel.Frame
import proofs.«128355_j73512660239033_1_alg».proof.Proof.Gen.KernelIdeal
import proofs.«128355_j73512660239033_1_alg».proof.Proof.Gen.KernelIdeal.Skeleton
import proofs.«128355_j73512660239033_1_alg».proof.Proof.Gen.KernelIdeal.Launch
import proofs.«128355_j73512660239033_1_alg».proof.Proof.Gen.KernelIdeal.Points
import proofs.«128355_j73512660239033_1_alg».proof.Proof.Gen.KernelIdeal.Frame
import proofs.«128355_j73512660239033_1_alg».proof.Proof.Gen.KernelIdeal.Value
import proofs.«128355_j73512660239033_1_alg».proof.Proof.Gen.ReferenceIdeal
import proofs.«128355_j73512660239033_1_alg».proof.Proof.Gen.ReferenceIdeal.Run
import proofs.«128355_j73512660239033_1_alg».proof.Proof.Gen.ReferenceIdeal.Read
import proofs.«128355_j73512660239033_1_alg».proof.Proof.Gen.Pre_finite_inputs
import Idealize.ShloMosaic.Adequacy
import Idealize.ShloMosaic.Init
import proofs.«128355_j73512660239033_1_alg».proof.Proof.KernelArray
import proofs.«128355_j73512660239033_1_alg».proof.Proof.RefArray

noncomputable section

namespace Cert.Proof

open Idealize.ShloMosaic Idealize.ShloMosaic.TcCoe Idealize.SL.Sem

/-- The aggregated input is the same function of the features and the two endpoint vectors in both programs: the same
    operations in the same order over the same shapes. -/
theorem aggregated_eq (x0 : FVec Ideal Cert.KernelIdeal.S100000x64 .f32) (x1 x2 : IVec Cert.KernelIdeal.S1000000 32) :
    Cert.ReferenceIdeal.Read.val_main_v27 (F := Ideal) x0 x1 x2 = Cert.KernelIdeal.Array.xagg x0 x1 x2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at `Mlp.result` of the aggregated
    input, the weights and the biases. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, -, h5, h6, h7, h8⟩ := hagree c
  refine (Cert.ReferenceIdeal.Read.val_main_v37_eq _ _ _ _ _ _ _).trans ?_
  refine (Cert.ReferenceIdeal.RefArray.result_eq _ _ _ _ _ _ _).trans ?_
  rw [aggregated_eq, h0, h1, h2, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
